-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16
  ∧ IdealRules.truncf_extf.Statement Cert.KernelIdeal.S256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x4096 : Shape := ⟨3, ![1, 32, 4096]⟩
abbrev S4096x11008 : Shape := ⟨2, ![4096, 11008]⟩
abbrev S32x11008 : Shape := ⟨2, ![32, 11008]⟩
abbrev S11008 : Shape := ⟨1, ![11008]⟩
abbrev S_ : Shape := ⟨0, ![]⟩

class Facts : Prop where
  bcast_S_S1x32x4096 : S_.BroadcastsInDim S1x32x4096 (![] : Fin 0 → Fin S1x32x4096.rank)
  reducesTo_S1x32x4096_S_d0_1_2 : S1x32x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S1x32x4096 .f32) (main_arg1 : IVec S4096x11008 32) (main_arg2 : IVec S32x11008 32) (main_arg3 : FVec F S32x11008 .f32) (main_arg4 : FVec F S11008 .f32) : IVec S_ 1 :=
  let main_v0 : FVec F S1x32x4096 .f32 := Host.absf main_arg0
  let main_cst : FVec F S_ .f32 := constant S_ .f32 0x7F800000#32
  let main_v1 : FVec F S1x32x4096 .f32 := broadcastInDim S1x32x4096 ![] bcast_S_S1x32x4096 main_cst
  let main_v2 : IVec S1x32x4096 1 := cmpf .olt main_v0 main_v1
  let main_c : IVec S_ 1 := constantI S_ 1 1#1
  let main_v3 : IVec S_ 1 := (fun x v => Host.reduce IntOp.andi x v reducesTo_S1x32x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S1x32x4096 : Shape := ⟨3, ![1, 32, 4096]⟩
abbrev S4096x11008 : Shape := ⟨2, ![4096, 11008]⟩
abbrev S32x11008 : Shape := ⟨2, ![32, 11008]⟩
abbrev S11008 : Shape := ⟨1, ![11008]⟩
abbrev S32x4096 : Shape := ⟨2, ![32, 4096]⟩
abbrev S4096x256 : Shape := ⟨2, ![4096, 256]⟩
abbrev S32x256 : Shape := ⟨2, ![32, 256]⟩
abbrev S256 : Shape := ⟨1, ![256]⟩
abbrev S128x256 : Shape := ⟨2, ![128, 256]⟩
abbrev S1x256 : Shape := ⟨2, ![1, 256]⟩
abbrev S32x128 : Shape := ⟨2, ![32, 128]⟩
abbrev S1x32x11008 : Shape := ⟨3, ![1, 32, 11008]⟩

abbrev nBuf : Space → Nat
  | .hbm => 8
  | .vmem => 11
  | .smem => 0
  | _ => 0

abbrev bufTy : (tb : Table) → Fin (tcTables nBuf tb) → BufTy
  | .hbm, ⟨0, _⟩ => ⟨S1x32x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S32x4096, .f32⟩
  | .hbm, ⟨6, _⟩ => ⟨S32x11008, .f32⟩
  | .hbm, ⟨7, _⟩ => ⟨S1x32x11008, .f32⟩
  | .local _ .vmem, ⟨0, _⟩ => ⟨S32x4096, .f32⟩
  | .local _ .vmem, ⟨1, _⟩ => ⟨S4096x256, .i32⟩
  | .local _ .vmem, ⟨2, _⟩ => ⟨S4096x256, .i32⟩
  | .local _ .vmem, ⟨3, _⟩ => ⟨S32x256, .i32⟩
  | .local _ .vmem, ⟨4, _⟩ => ⟨S32x256, .i32⟩
  | .local _ .vmem, ⟨5, _⟩ => ⟨S32x256, .f32⟩
  | .local _ .vmem, ⟨6, _⟩ => ⟨S32x256, .f32⟩
  | .local _ .vmem, ⟨7, _⟩ => ⟨S256, .f32⟩
  | .local _ .vmem, ⟨8, _⟩ => ⟨S256, .f32⟩
  | .local _ .vmem, ⟨9, _⟩ => ⟨S32x256, .f32⟩
  | .local _ .vmem, ⟨10, _⟩ => ⟨S32x256, .f32⟩
  | _, _ => ⟨S1x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![43], ![false]⟩

def k0_off1 (c0_i32 : BitVec 32) : Fin 2 → Nat :=
  let c128_i32 : BitVec 32 := 128#32
  let v1 : BitVec 32 := Scalar.muli c0_i32 c128_i32
  let v2 : Index := Scalar.indexCast v1
  let c0 : Index := 0#32
  ![v2.toNat, 0]
def k0_off2 (c0_i32 : BitVec 32) : Fin 2 → Nat :=
  let c0_3 : Index := 0#32
  let c128_i32_2 : BitVec 32 := 128#32
  let v21 : BitVec 32 := Scalar.muli c0_i32 c128_i32_2
  let v22 : Index := Scalar.indexCast v21
  ![0, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x32x4096_S32x4096 : S1x32x4096.ShapeCasts S32x4096
  h_S128x256 : 0 < S128x256.numel
  inb_S32x256_S1x256_0_0 : ∀ a, (![0, 0] : Fin 2 → Nat) a + S1x256.size a ≤ S32x256.size a
  h_S1x256 : 0 < S1x256.numel
  shapeCasts_S1x256_S256 : S1x256.ShapeCasts S256
  bitsLt_bf16_f32 : FTy.bits .bf16 < FTy.bits .f32
  shapeCasts_S256_S1x256 : S256.ShapeCasts S1x256
  broadcasts_S1x256_S128x256 : S1x256.Broadcasts S128x256
  h_S32x128 : 0 < S32x128.numel
  shapeCasts_S32x128_S32x128 : S32x128.ShapeCasts S32x128
  inb_S32x256_S1x256_1_0 : ∀ a, (![1, 0] : Fin 2 → Nat) a + S1x256.size a ≤ S32x256.size a
  inb_S32x256_S1x256_2_0 : ∀ a, (![2, 0] : Fin 2 → Nat) a + S1x256.size a ≤ S32x256.size a
  inb_S32x256_S1x256_3_0 : ∀ a, (![3, 0] : Fin 2 → Nat) a + S1x256.size a ≤ S32x256.size a
  inb_S32x256_S1x256_4_0 : ∀ a, (![4, 0] : Fin 2 → Nat) a + S1x256.size a ≤ S32x256.size a
  inb_S32x256_S1x256_5_0 : ∀ a, (![5, 0] : Fin 2 → Nat) a + S1x256.size a ≤ S32x256.size a
  inb_S32x256_S1x256_6_0 : ∀ a, (![6, 0] : Fin 2 → Nat) a + S1x256.size a ≤ S32x256.size a
  inb_S32x256_S1x256_7_0 : ∀ a, (![7, 0] : Fin 2 → Nat) a + S1x256.size a ≤ S32x256.size a
  inb_S32x256_S1x256_8_0 : ∀ a, (![8, 0] : Fin 2 → Nat) a + S1x256.size a ≤ S32x256.size a
  inb_S32x256_S1x256_9_0 : ∀ a, (![9, 0] : Fin 2 → Nat) a + S1x256.size a ≤ S32x256.size a
  inb_S32x256_S1x256_10_0 : ∀ a, (![10, 0] : Fin 2 → Nat) a + S1x256.size a ≤ S32x256.size a
  inb_S32x256_S1x256_11_0 : ∀ a, (![11, 0] : Fin 2 → Nat) a + S1x256.size a ≤ S32x256.size a
  inb_S32x256_S1x256_12_0 : ∀ a, (![12, 0] : Fin 2 → Nat) a + S1x256.size a ≤ S32x256.size a
  inb_S32x256_S1x256_13_0 : ∀ a, (![13, 0] : Fin 2 → Nat) a + S1x256.size a ≤ S32x256.size a
  inb_S32x256_S1x256_14_0 : ∀ a, (![14, 0] : Fin 2 → Nat) a + S1x256.size a ≤ S32x256.size a
  inb_S32x256_S1x256_15_0 : ∀ a, (![15, 0] : Fin 2 → Nat) a + S1x256.size a ≤ S32x256.size a
  inb_S32x256_S1x256_16_0 : ∀ a, (![16, 0] : Fin 2 → Nat) a + S1x256.size a ≤ S32x256.size a
  inb_S32x256_S1x256_17_0 : ∀ a, (![17, 0] : Fin 2 → Nat) a + S1x256.size a ≤ S32x256.size a
  inb_S32x256_S1x256_18_0 : ∀ a, (![18, 0] : Fin 2 → Nat) a + S1x256.size a ≤ S32x256.size a
  inb_S32x256_S1x256_19_0 : ∀ a, (![19, 0] : Fin 2 → Nat) a + S1x256.size a ≤ S32x256.size a
  inb_S32x256_S1x256_20_0 : ∀ a, (![20, 0] : Fin 2 → Nat) a + S1x256.size a ≤ S32x256.size a
  inb_S32x256_S1x256_21_0 : ∀ a, (![21, 0] : Fin 2 → Nat) a + S1x256.size a ≤ S32x256.size a
  inb_S32x256_S1x256_22_0 : ∀ a, (![22, 0] : Fin 2 → Nat) a + S1x256.size a ≤ S32x256.size a
  inb_S32x256_S1x256_23_0 : ∀ a, (![23, 0] : Fin 2 → Nat) a + S1x256.size a ≤ S32x256.size a
  inb_S32x256_S1x256_24_0 : ∀ a, (![24, 0] : Fin 2 → Nat) a + S1x256.size a ≤ S32x256.size a
  inb_S32x256_S1x256_25_0 : ∀ a, (![25, 0] : Fin 2 → Nat) a + S1x256.size a ≤ S32x256.size a
  inb_S32x256_S1x256_26_0 : ∀ a, (![26, 0] : Fin 2 → Nat) a + S1x256.size a ≤ S32x256.size a
  inb_S32x256_S1x256_27_0 : ∀ a, (![27, 0] : Fin 2 → Nat) a + S1x256.size a ≤ S32x256.size a
  inb_S32x256_S1x256_28_0 : ∀ a, (![28, 0] : Fin 2 → Nat) a + S1x256.size a ≤ S32x256.size a
  inb_S32x256_S1x256_29_0 : ∀ a, (![29, 0] : Fin 2 → Nat) a + S1x256.size a ≤ S32x256.size a
  inb_S32x256_S1x256_30_0 : ∀ a, (![30, 0] : Fin 2 → Nat) a + S1x256.size a ≤ S32x256.size a
  inb_S32x256_S1x256_31_0 : ∀ a, (![31, 0] : Fin 2 → Nat) a + S1x256.size a ≤ S32x256.size a
  inb_S256_S256_0 : ∀ a, (![0] : Fin 1 → Nat) a + S256.size a ≤ S256.size a
  h_S256 : 0 < S256.numel
  broadcasts_S1x256_S32x256 : S1x256.Broadcasts S32x256
  inb_S32x256_S32x256_0_0 : ∀ a, (![0, 0] : Fin 2 → Nat) a + S32x256.size a ≤ S32x256.size a
  h_S32x256 : 0 < S32x256.numel
  shapeCasts_S32x11008_S1x32x11008 : S32x11008.ShapeCasts S1x32x11008
  dot_S32x128_S128x256_S32x256_1_0_0_1_n_n_wf : DotDims.WF S32x128 S128x256 S32x256 [1] [0] [0] [1] [] []
  hrank0 : 0 < grid0.rank
  k0_off1_inb : ∀ (r : Fin 32), ∀ a, (k0_off1 (BitVec.ofNat 32 r.val)) a + S128x256.size a ≤ S4096x256.size a
  k0_off2_inb : ∀ (r : Fin 32), ∀ a, (k0_off2 (BitVec.ofNat 32 r.val)) a + S32x128.size a ≤ S32x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x11008.size a
  hwx0_1 : ∀ i : grid0.Coords, EltTy.bits .i32 = 32 ∨ (Rect.block (s := S4096x11008) S4096x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .i32 = 32 ∨ (Rect.block (s := S32x11008) S32x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S11008.size a
  hwx0_4 : ∀ i : grid0.Coords, EltTy.bits .f32 = 32 ∨ (Rect.block (s := S11008) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x11008.size a
  hwx0_5 : ∀ i : grid0.Coords, EltTy.bits .f32 = 32 ∨ (Rect.block (s := S32x11008) S32x256.size (cc0_transform_5 i) (hinb0_5 i)).WholeWords (EltTy.packing .f32)

variable [Facts₀]

def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf

abbrev win0_0 : Pipeline.Window sig grid0 :=
  Pipeline.Window.ofSpec (Memref.whole main_v0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x32x4096 : Shape := ⟨3, ![1, 32, 4096]⟩
abbrev S4096x11008 : Shape := ⟨2, ![4096, 11008]⟩
abbrev S32x11008 : Shape := ⟨2, ![32, 11008]⟩
abbrev S11008 : Shape := ⟨1, ![11008]⟩
abbrev S32x128x11008 : Shape := ⟨3, ![32, 128, 11008]⟩
abbrev S32x1x11008 : Shape := ⟨3, ![32, 1, 11008]⟩
abbrev S1x32x11008 : Shape := ⟨3, ![1, 32, 11008]⟩
abbrev S1x1x11008 : Shape := ⟨3, ![1, 1, 11008]⟩

abbrev nBuf : Space → Nat
  | .hbm => 25
  | .vmem => 0
  | .smem => 0
  | _ => 0

abbrev bufTy : (tb : Table) → Fin (tcTables nBuf tb) → BufTy
  | .hbm, ⟨0, _⟩ => ⟨S1x32x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S32x128x11008, .i32⟩
  | .hbm, ⟨6, _⟩ => ⟨S32x128x11008, .f32⟩
  | .hbm, ⟨7, _⟩ => ⟨S32x11008, .bf16⟩
  | .hbm, ⟨8, _⟩ => ⟨S32x11008, .f32⟩
  | .hbm, ⟨9, _⟩ => ⟨S32x1x11008, .i32⟩
  | .hbm, ⟨10, _⟩ => ⟨S32x1x11008, .f32⟩
  | .hbm, ⟨11, _⟩ => ⟨S32x128x11008, .f32⟩
  | .hbm, ⟨12, _⟩ => ⟨S32x128x11008, .f32⟩
  | .hbm, ⟨13, _⟩ => ⟨S32x1x11008, .f32⟩
  | .hbm, ⟨14, _⟩ => ⟨S32x128x11008, .f32⟩
  | .hbm, ⟨15, _⟩ => ⟨S32x128x11008, .f32⟩
  | .hbm, ⟨16, _⟩ => ⟨S4096x11008, .f32⟩
  | .hbm, ⟨17, _⟩ => ⟨S1x32x4096, .bf16⟩
  | .hbm, ⟨18, _⟩ => ⟨S1x32x4096, .f32⟩
  | .hbm, ⟨19, _⟩ => ⟨S11008, .bf16⟩
  | .hbm, ⟨20, _⟩ => ⟨S11008, .f32⟩
  | .hbm, ⟨21, _⟩ => ⟨S1x32x11008, .f32⟩
  | .hbm, ⟨22, _⟩ => ⟨S1x1x11008, .f32⟩
  | .hbm, ⟨23, _⟩ => ⟨S1x32x11008, .f32⟩
  | .hbm, ⟨24, _⟩ => ⟨S1x32x11008, .f32⟩
  | _, _ => ⟨S1x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  shapeCasts_S4096x11008_S32x128x11008 : S4096x11008.ShapeCasts S32x128x11008
  bitsLt_bf16_f32 : FTy.bits .bf16 < FTy.bits .f32
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x1x11008_2 : S11008.BroadcastsInDim S1x1x11008 (![2] : Fin 1 → Fin S1x1x11008.rank)
  bcast_S1x1x11008_S1x32x11008_0_1_2 : S1x1x11008.BroadcastsInDim S1x32x11008 (![0, 1, 2] : Fin 3 → Fin S1x32x11008.rank)
  dot_S1x32x4096_S4096x11008_S1x32x11008_2_0_01_1_n_n_wf : DotDims.WF S1x32x4096 S4096x11008 S1x32x11008 [2] [0] [0, 1] [1] [] []

variable [Facts₀]

def dot_S1x32x4096_S4096x11008_S1x32x11008_2_0_01_1_n_n : DotDims S1x32x4096 S4096x11008 S1x32x11008 where
  lhsContracting := [2]
  rhsContracting := [0]
  lhsNonContracting := [0, 1]
  rhsNonContracting := [1]
  lhsBatch := []
  rhsBatch := []
  wf := dot_S1x32x4096_S4096x11008_S1x32x11008_2_0_01_1_n_n_wf

class Facts : Prop extends Facts₀ where

variable [Facts]
-- ==== Proof.GroupDot.lean ====
/-
  One group of the layer inside a block: 128 consecutive input features against 256 output columns.

  The body handles the 32 groups one after the other. For a group it has a 32 × 128 slice `xg` of the activations,
  the group's 128 × 256 slice `qwg` of the integer weights and the group's one row of zero points `qzg` and of
  scales `scg` (each 1 × 256). It dequantises the slice, `(qwg[k, o] - qzg[0, o]) · scg[0, o]` — the row of zero
  points and the row of scales repeated down the 128 features —, and multiplies: entry `(r, o)` of the group's
  product is `∑ k < 128, xg[r, k] · ((qwg[k, o] - qzg[0, o]) · scg[0, o])`. On the extended reals the changes of
  float format on the way are the identity and the integers are read as the reals they are.
-/
import proofs.«121166_j59425167507986_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Facts₀ Cert.KernelIdeal.Facts Idealize.ShloMosaic Idealize.ShloMosaic.ValueIdx

/-- A group's dequantised weights: the integer slice minus the group's row of zero points, times its row of scales. -/
def dequant (qwg : Vec Ideal S128x256 .i32) (qzg : Vec Ideal S1x256 .i32) (scg : Vec Ideal S1x256 .f32) :
    FVec Ideal S128x256 .f32 :=
  mulf
    (subf (sitofp (F := Ideal) .f32 qwg)
      (broadcastTo S128x256
        (shapeCast S1x256 (sitofp (F := Ideal) .f32 (shapeCast S256 qzg shapeCasts_S1x256_S256)) shapeCasts_S256_S1x256)
        broadcasts_S1x256_S128x256))
    (broadcastTo S128x256
      (shapeCast S1x256 (shapeCast S256 scg shapeCasts_S1x256_S256) shapeCasts_S256_S1x256)
      broadcasts_S1x256_S128x256)

/-- Entry `(k, o)` of it: feature `k`'s integer weight minus column `o`'s zero point, times column `o`'s scale. -/
theorem dequant_apply (qwg : Vec Ideal S128x256 .i32) (qzg : Vec Ideal S1x256 .i32) (scg : Vec Ideal S1x256 .f32)
    (k : Fin 128) (o : Fin 256) :
    dequant qwg qzg scg (ix2 k o)
      = ((((qwg (ix2 k o)).toInt : ℝ) : EReal) - (((qzg (ix2 (0 : Fin 1) o)).toInt : ℝ) : EReal)) * scg (ix2 (0 : Fin 1) o) := by
  unfold dequant
  rw [mulf_apply, subf_apply, sitofp_apply, broadcastTo_1b_ab_apply, broadcastTo_1b_ab_apply,
    shapeCast_a_1a_apply, shapeCast_a_1a_apply, sitofp_apply, shapeCast_1a_a_apply, shapeCast_1a_a_apply]
  rfl

/-- A group's product: its activation slice against its dequantised weights, accumulated from zero. -/
def grpDot (xg : Vec Ideal S32x128 .f32) (qwg : Vec Ideal S128x256 .i32) (qzg : Vec Ideal S1x256 .i32)
    (scg : Vec Ideal S1x256 .f32) : FVec Ideal S32x256 .f32 :=
  matmul dot_S32x128_S128x256_S32x256_1_0_0_1_n_n none
    (truncf .bf16 (shapeCast S32x128 xg shapeCasts_S32x128_S32x128) bitsLt_bf16_f32)
    (truncf .bf16 (dequant qwg qzg scg) bitsLt_bf16_f32)
    (constant S32x256 .f32 0x00000000#32)

/-! The product's operand indices at output entry `i` and contraction coordinate `q`, axis by axis: the left operand
    is read at (row of `i`, `q`), the right at (`q`, column of `i`). -/

theorem lhs_row (i : S32x256.Idx) (q : dot_S32x128_S128x256_S32x256_1_0_0_1_n_n.contr.Idx) :
    (dot_S32x128_S128x256_S32x256_1_0_0_1_n_n.lhsIdx i q 0).val = (i 0).val := by
  unfold DotDims.lhsIdx
  rw [dif_neg (show ¬(0 : Fin S32x128.rank) ∈ dot_S32x128_S128x256_S32x256_1_0_0_1_n_n.lhsBatch by decide),
    dif_pos (show (0 : Fin S32x128.rank) ∈ dot_S32x128_S128x256_S32x256_1_0_0_1_n_n.lhsNonContracting by decide)]
  rfl
theorem lhs_feat (i : S32x256.Idx) (q : dot_S32x128_S128x256_S32x256_1_0_0_1_n_n.contr.Idx) :
    (dot_S32x128_S128x256_S32x256_1_0_0_1_n_n.lhsIdx i q 1).val = (q ⟨0, by decide⟩).val :=
  dot_S32x128_S128x256_S32x256_1_0_0_1_n_n.lhsIdx_val_of_single rfl i q
theorem rhs_feat (i : S32x256.Idx) (q : dot_S32x128_S128x256_S32x256_1_0_0_1_n_n.contr.Idx) :
    (dot_S32x128_S128x256_S32x256_1_0_0_1_n_n.rhsIdx i q 0).val = (q ⟨0, by decide⟩).val :=
  dot_S32x128_S128x256_S32x256_1_0_0_1_n_n.rhsIdx_val_of_single rfl i q
theorem rhs_col (i : S32x256.Idx) (q : dot_S32x128_S128x256_S32x256_1_0_0_1_n_n.contr.Idx) :
    (dot_S32x128_S128x256_S32x256_1_0_0_1_n_n.rhsIdx i q 1).val = (i 1).val := by
  unfold DotDims.rhsIdx
  rw [dif_neg (show ¬(1 : Fin S128x256.rank) ∈ dot_S32x128_S128x256_S32x256_1_0_0_1_n_n.rhsBatch by decide),
    dif_pos (show (1 : Fin S128x256.rank) ∈ dot_S32x128_S128x256_S32x256_1_0_0_1_n_n.rhsNonContracting by decide)]
  rfl

/-- Entry `(r, o)` of a group's product is the sum over the group's 128 features of activation times weight. -/
theorem grpDot_apply (xg : Vec Ideal S32x128 .f32) (qwg : Vec Ideal S128x256 .i32) (qzg : Vec Ideal S1x256 .i32)
    (scg : Vec Ideal S1x256 .f32) (r : Fin 32) (o : Fin 256) :
    grpDot xg qwg qzg scg (ix2 r o) = ∑ k : Fin 128, xg (ix2 r k) * dequant qwg qzg scg (ix2 k o) := by
  unfold grpDot
  refine (Ideal.matmul_constant_zero_apply dot_S32x128_S128x256_S32x256_1_0_0_1_n_n none _ _ (ix2 r o)).trans ?_
  rw [← Equiv.sum_comp (contrEquiv1 dot_S32x128_S128x256_S32x256_1_0_0_1_n_n 128 rfl rfl).symm]
  refine Finset.sum_congr rfl fun k _ => ?_
  have hk := contrEquiv1_symm_val dot_S32x128_S128x256_S32x256_1_0_0_1_n_n 128 rfl rfl k
  have el : dot_S32x128_S128x256_S32x256_1_0_0_1_n_n.lhsIdx (ix2 r o) ((contrEquiv1 dot_S32x128_S128x256_S32x256_1_0_0_1_n_n 128 rfl rfl).symm k) = ix2 r k :=
    funext fun a => Fin.ext (by
      match a with
      | ⟨0, _⟩ => exact lhs_row _ _
      | ⟨1, _⟩ => exact (lhs_feat _ _).trans hk)
  have er : dot_S32x128_S128x256_S32x256_1_0_0_1_n_n.rhsIdx (ix2 r o) ((contrEquiv1 dot_S32x128_S128x256_S32x256_1_0_0_1_n_n 128 rfl rfl).symm k) = ix2 k o :=
    funext fun a => Fin.ext (by
      match a with
      | ⟨0, _⟩ => exact (rhs_feat _ _).trans hk
      | ⟨1, _⟩ => exact rhs_col _ _)
  rw [el, er, truncf_apply, truncf_apply, shapeCast_self]

end Cert.KernelIdeal.Body

end
-- ==== Proof.Spec.lean ====
/-
  What the quantised linear layer computes, as one function of its five argument arrays over the extended reals.

  The input features 0 … 4095 come in 32 groups of 128; feature `i` belongs to group `i / 128`. Every group has,
  per output column `o`, one integer zero point `qz[g, o]` and one scale `sc[g, o]`; the dequantised weight of
  feature `i` for column `o` is `(qw[i, o] - qz[i / 128, o]) · sc[i / 128, o]`, the two integers read as the
  reals they are. Row `r` of the result is the activation row `x[0, r, ·]` against those weights, plus the bias:
  `result[0, r, o] = (∑ i < 4096, x[0, r, i] · weight i o) + bias[o]`.

  Both programs compute this. One sums the 4096 products of an entry in one sweep; the other sums them group by
  group, 128 at a time, and adds the 32 partial sums up one after the other starting from zero. Addition of extended
  reals is commutative and associative everywhere (also at the infinities), so the two orders agree without any
  finiteness assumption: `sum_by_groups` below.
-/
import Idealize.ShloMosaic.PureOps.Ideal
import Idealize.ShloMosaic.Lib.ValueIdx
import Mathlib.Algebra.BigOperators.Fin
import Mathlib.Logic.Equiv.Fin.Basic

noncomputable section

namespace Cert.QLinear

open Idealize.ShloMosaic Idealize.ShloMosaic.ValueIdx

/-- The group an input feature belongs to. -/
def grpOf (i : Fin 4096) : Fin 32 := ⟨i.val / 128, by have := i.isLt; omega⟩

/-- Feature `k` of group `g`. -/
def featOf (g : Fin 32) (k : Fin 128) : Fin 4096 := ⟨128 * g.val + k.val, by have := g.isLt; have := k.isLt; omega⟩

theorem grpOf_featOf (g : Fin 32) (k : Fin 128) : grpOf (featOf g k) = g :=
  Fin.ext (by show (128 * g.val + k.val) / 128 = g.val; have := k.isLt; omega)

/-- The dequantised weight of input feature `i` for output column `o`. -/
def weight (qw : Vec Ideal ⟨2, ![4096, 11008]⟩ .i32) (qz : Vec Ideal ⟨2, ![32, 11008]⟩ .i32)
    (sc : Vec Ideal ⟨2, ![32, 11008]⟩ .f32) (i : Fin 4096) (o : Fin 11008) : EReal :=
  ((((qw (ix2 i o)).toInt : ℝ) : EReal) - (((qz (ix2 (grpOf i) o)).toInt : ℝ) : EReal)) * sc (ix2 (grpOf i) o)

/-- The layer's result: activations against dequantised weights, plus bias. -/
def result (x : Vec Ideal ⟨3, ![1, 32, 4096]⟩ .f32) (qw : Vec Ideal ⟨2, ![4096, 11008]⟩ .i32)
    (qz : Vec Ideal ⟨2, ![32, 11008]⟩ .i32) (sc : Vec Ideal ⟨2, ![32, 11008]⟩ .f32)
    (bias : Vec Ideal ⟨1, ![11008]⟩ .f32) : Vec Ideal ⟨3, ![1, 32, 11008]⟩ .f32 :=
  fun j => (∑ i : Fin 4096, x (ix3 (j 0) (j 1) i) * weight qw qz sc i (j 2)) + bias (ix1 (j 2))

/-- The same result before the leading unit axis is put on: over the 32 × 4096 activation matrix. -/
def result2 (x : Vec Ideal ⟨2, ![32, 4096]⟩ .f32) (qw : Vec Ideal ⟨2, ![4096, 11008]⟩ .i32)
    (qz : Vec Ideal ⟨2, ![32, 11008]⟩ .i32) (sc : Vec Ideal ⟨2, ![32, 11008]⟩ .f32)
    (bias : Vec Ideal ⟨1, ![11008]⟩ .f32) : Vec Ideal ⟨2, ![32, 11008]⟩ .f32 :=
  fun i => (∑ k : Fin 4096, x (ix2 (i 0) k) * weight qw qz sc k (i 1)) + bias (ix1 (i 1))

/-- One 32 × 256 column block of `result2`, from the whole activation matrix and the block's 256 columns of the
    other four arrays: the same formula over the block's own column index. -/
def blockResult (x : Vec Ideal ⟨2, ![32, 4096]⟩ .f32) (qw : Vec Ideal ⟨2, ![4096, 256]⟩ .i32)
    (qz : Vec Ideal ⟨2, ![32, 256]⟩ .i32) (sc : Vec Ideal ⟨2, ![32, 256]⟩ .f32)
    (bias : Vec Ideal ⟨1, ![256]⟩ .f32) : Vec Ideal ⟨2, ![32, 256]⟩ .f32 :=
  fun y => (∑ i : Fin 4096, x (ix2 (y 0) i)
      * (((((qw (ix2 i (y 1))).toInt : ℝ) : EReal) - (((qz (ix2 (grpOf i) (y 1))).toInt : ℝ) : EReal)) * sc (ix2 (grpOf i) (y 1))))
    + bias (ix1 (y 1))

/-- A sum over the 4096 features is the sum over the 32 groups of the sums over each group's 128 features. -/
theorem sum_by_groups {M : Type*} [AddCommMonoid M] (f : Fin 4096 → M) :
    ∑ g : Fin 32, ∑ k : Fin 128, f (featOf g k) = ∑ i : Fin 4096, f i := by
  rw [← Fintype.sum_prod_type' (f := fun g k => f (featOf g k))]
  refine Fintype.sum_equiv (finProdFinEquiv (m := 32) (n := 128)) _ _ fun p => ?_
  exact congrArg f (Fin.ext (by show 128 * p.1.val + p.2.val = p.2.val + 128 * p.1.val; omega))

end Cert.QLinear

end
-- ==== Proof.BlockChain.lean ====
/-
  What the body leaves in a block: the 32 groups' products added up from zero, plus the bias.

  A block has the whole 32 × 4096 activation matrix `x0`, 256 columns of the integer weights (`x1`, 4096 × 256), of
  the zero points and of the scales (`x2`, `x3`, 32 × 256: one row per group) and of the bias (`x4`). Group `g` reads
  columns `128 g … 128 g + 127` of `x0`, rows `128 g … 128 g + 127` of `x1` and row `g` of `x2` and `x3`. The body is
  the accumulation `acc₀ = 0`, `acc_{g+1} = acc_g + (group g's product)`, written out 32 times, and stores
  `acc₃₂ + bias` (the bias row repeated down the 32 rows).

  Entry `(r, o)` of `acc_n` is therefore `∑ g < n, ∑ k < 128, t (128 g + k)` with
  `t i = x0[r, i] · ((x1[i, o] - x2[i / 128, o]) · x3[i / 128, o])`, by induction on `n`; at `n = 32` the double sum is
  the sum over all 4096 features (addition of extended reals is commutative and associative), which is the
  specification's block.
-/
import proofs.«121166_j59425167507986_1_alg».proof.Proof.Gen.KernelIdeal.Frame
import proofs.«121166_j59425167507986_1_alg».proof.Proof.GroupDot
import proofs.«121166_j59425167507986_1_alg».proof.Proof.Spec
import Idealize.ShloMosaic.Lib.Pipeline.Value

set_option maxRecDepth 16384

noncomputable section

namespace Cert.KernelIdeal.Body

open Cert.KernelIdeal Cert.KernelIdeal.Gen
open Idealize.ShloMosaic Idealize.ShloMosaic.ValueIdx Idealize.ShloMosaic.Tactic Cert.QLinear

/-! ## Where group `g` reads -/

/-- Columns `128 g … 128 g + 127` of the activations, all 32 rows. -/
abbrev xRect (g : Fin 32) : Rect S32x4096 :=
  Rect.unit ![0, 128 * g.val] S32x128.size
    (Rect.inb₂ (by show 0 + 32 ≤ 32; omega) (by show 128 * g.val + 128 ≤ 4096; have := g.isLt; omega))

/-- Rows `128 g … 128 g + 127` of the block's integer weights, all 256 columns. -/
abbrev qwRect (g : Fin 32) : Rect S4096x256 :=
  Rect.unit ![128 * g.val, 0] S128x256.size
    (Rect.inb₂ (by show 128 * g.val + 128 ≤ 4096; have := g.isLt; omega) (by show 0 + 256 ≤ 256; omega))

/-- Row `g` of a 32 × 256 per-group array (zero points, scales). -/
abbrev rowRect (g : Fin 32) : Rect S32x256 :=
  Rect.unit ![g.val, 0] S1x256.size
    (Rect.inb₂ (by show g.val + 1 ≤ 32; have := g.isLt; omega) (by show 0 + 256 ≤ 256; omega))

/-- Group `g`'s product in the block. -/
def grp (x0 : Vec Ideal S32x4096 .f32) (x1 : Vec Ideal S4096x256 .i32) (x2 : Vec Ideal S32x256 .i32)
    (x3 : Vec Ideal S32x256 .f32) (g : Fin 32) : FVec Ideal S32x256 .f32 :=
  grpDot (View.ld (Val := Elt Ideal) x0 (xRect g)) (View.ld (Val := Elt Ideal) x1 (qwRect g))
    (View.ld (Val := Elt Ideal) x2 (rowRect g)) (View.ld (Val := Elt Ideal) x3 (rowRect g))

/-- The accumulator after the first `n` groups. -/
def accUpTo (x0 : Vec Ideal S32x4096 .f32) (x1 : Vec Ideal S4096x256 .i32) (x2 : Vec Ideal S32x256 .i32)
    (x3 : Vec Ideal S32x256 .f32) : (n : ℕ) → n ≤ 32 → FVec Ideal S32x256 .f32
  | 0, _ => broadcast S32x256 (Scalar.ofBits (F := Ideal) .f32 0x00000000#32)
  | n + 1, h => addf (accUpTo x0 x1 x2 x3 n (Nat.le_of_succ_le h)) (grp x0 x1 x2 x3 ⟨n, h⟩)

/-- What the body stores: all 32 groups, plus the bias row repeated down the rows. -/
def bodyVal (x0 : Vec Ideal S32x4096 .f32) (x1 : Vec Ideal S4096x256 .i32) (x2 : Vec Ideal S32x256 .i32)
    (x3 : Vec Ideal S32x256 .f32) (x4 : Vec Ideal S256 .f32) : FVec Ideal S32x256 .f32 :=
  addf (accUpTo x0 x1 x2 x3 32 (Nat.le_refl 32))
    (broadcastTo S32x256 (shapeCast S1x256 x4 shapeCasts_S256_S1x256) broadcasts_S1x256_S32x256)

/-! ## One summand, and a group at an entry -/

/-- Feature `i`'s contribution to entry `(r, o)` of the block. -/
def term (x0 : Vec Ideal S32x4096 .f32) (x1 : Vec Ideal S4096x256 .i32) (x2 : Vec Ideal S32x256 .i32)
    (x3 : Vec Ideal S32x256 .f32) (r : Fin 32) (o : Fin 256) (i : Fin 4096) : EReal :=
  x0 (ix2 r i) * (((((x1 (ix2 i o)).toInt : ℝ) : EReal) - (((x2 (ix2 (grpOf i) o)).toInt : ℝ) : EReal)) * x3 (ix2 (grpOf i) o))

theorem ld_x (x0 : Vec Ideal S32x4096 .f32) (g : Fin 32) (r : Fin 32) (k : Fin 128) :
    View.ld (Val := Elt Ideal) x0 (xRect g) (ix2 r k) = x0 (ix2 r (featOf g k)) :=
  congrArg x0 (funext fun a => Fin.ext (by
    match a with
    | ⟨0, _⟩ => show 0 + 1 * r.val = r.val; omega
    | ⟨1, _⟩ => show 128 * g.val + 1 * k.val = 128 * g.val + k.val; omega))

theorem ld_qw (x1 : Vec Ideal S4096x256 .i32) (g : Fin 32) (k : Fin 128) (o : Fin 256) :
    View.ld (Val := Elt Ideal) x1 (qwRect g) (ix2 k o) = x1 (ix2 (featOf g k) o) :=
  congrArg x1 (funext fun a => Fin.ext (by
    match a with
    | ⟨0, _⟩ => show 128 * g.val + 1 * k.val = 128 * g.val + k.val; omega
    | ⟨1, _⟩ => show 0 + 1 * o.val = o.val; omega))

theorem ld_row {e : EltTy} (x : Vec Ideal S32x256 e) (g : Fin 32) (o : Fin 256) :
    View.ld (Val := Elt Ideal) x (rowRect g) (ix2 (0 : Fin 1) o) = x (ix2 g o) :=
  congrArg x (funext fun a => Fin.ext (by
    match a with
    | ⟨0, _⟩ => show g.val + 1 * 0 = g.val; omega
    | ⟨1, _⟩ => show 0 + 1 * o.val = o.val; omega))

/-- Entry `(r, o)` of group `g`'s product: the contributions of the group's 128 features. -/
theorem grp_apply (x0 : Vec Ideal S32x4096 .f32) (x1 : Vec Ideal S4096x256 .i32) (x2 : Vec Ideal S32x256 .i32)
    (x3 : Vec Ideal S32x256 .f32) (g : Fin 32) (r : Fin 32) (o : Fin 256) :
    grp x0 x1 x2 x3 g (ix2 r o) = ∑ k : Fin 128, term x0 x1 x2 x3 r o (featOf g k) := by
  unfold grp
  rw [grpDot_apply]
  refine Finset.sum_congr rfl fun k _ => ?_
  rw [dequant_apply, ld_x, ld_qw, ld_row, ld_row]
  unfold term
  rw [grpOf_featOf]

/-! ## The accumulator at an entry -/

theorem accUpTo_apply (x0 : Vec Ideal S32x4096 .f32) (x1 : Vec Ideal S4096x256 .i32) (x2 : Vec Ideal S32x256 .i32)
    (x3 : Vec Ideal S32x256 .f32) (r : Fin 32) (o : Fin 256) : ∀ (n : ℕ) (hn : n ≤ 32),
    accUpTo x0 x1 x2 x3 n hn (ix2 r o)
      = ∑ g : Fin n, ∑ k : Fin 128, term x0 x1 x2 x3 r o (featOf ⟨g.val, Nat.lt_of_lt_of_le g.isLt hn⟩ k)
  | 0, _ => by
    rw [accUpTo, broadcast_apply, Fin.sum_univ_zero]
    exact Ideal.ofBits_zero_f32
  | n + 1, hn => by
    rw [accUpTo, addf_apply, accUpTo_apply x0 x1 x2 x3 r o n (Nat.le_of_succ_le hn), grp_apply]
    exact (Fin.sum_univ_castSucc (fun g : Fin (n + 1) =>
      ∑ k : Fin 128, term x0 x1 x2 x3 r o (featOf ⟨g.val, Nat.lt_of_lt_of_le g.isLt hn⟩ k))).symm

/-- Entry `(r, o)` of what the body stores is the specification's block there. -/
theorem bodyVal_apply (x0 : Vec Ideal S32x4096 .f32) (x1 : Vec Ideal S4096x256 .i32) (x2 : Vec Ideal S32x256 .i32)
    (x3 : Vec Ideal S32x256 .f32) (x4 : Vec Ideal S256 .f32) (r : Fin 32) (o : Fin 256) :
    bodyVal x0 x1 x2 x3 x4 (ix2 r o) = blockResult x0 x1 x2 x3 x4 (ix2 r o) := by
  unfold bodyVal
  rw [addf_apply, accUpTo_apply, broadcastTo_1b_ab_apply, shapeCast_a_1a_apply]
  exact congrArg (· + x4 (ix1 o)) (sum_by_groups (term x0 x1 x2 x3 r o))

/-! ## The run's stored piece is that accumulation -/

theorem zeros2 : (![0, 0] : Fin 2 → Nat) = fun _ => 0 :=
  funext fun a => by match a with | ⟨0, _⟩ => rfl | ⟨1, _⟩ => rfl
theorem zeros1 : (![0] : Fin 1 → Nat) = fun _ => 0 :=
  funext fun a => by match a with | ⟨0, _⟩ => rfl

/-- The body makes one store, of the whole block; what it stores, over the blocks it loaded, is `bodyVal`: the
    printed sequence of operations is the 32-fold accumulation written out. -/
theorem out_eq_bodyVal (c : Dev nD) (i : grid0.Coords) (arg1 : Memref sig .tc .vmem S32x4096 .f32) (harg1 : arg1.IsWhole) (arg2 : Memref sig .tc .vmem S4096x256 .i32) (harg2 : arg2.IsWhole) (arg3 : Memref sig .tc .vmem S32x256 .i32) (harg3 : arg3.IsWhole) (arg4 : Memref sig .tc .vmem S32x256 .f32) (harg4 : arg4.IsWhole) (arg5 : Memref sig .tc .vmem S256 .f32) (harg5 : arg5.IsWhole) (arg6 : Memref sig .tc .vmem S32x256 .f32) (harg6 : arg6.IsWhole)
    (x0 : Vec Ideal S32x4096 .f32) (x1 : Vec Ideal S4096x256 .i32) (x2 : Vec Ideal S32x256 .i32) (x3 : Vec Ideal S32x256 .f32) (x4 : Vec Ideal S256 .f32) :
    out0_A_5 (F := Ideal) c i arg1 harg1 arg2 harg2 arg3 harg3 arg4 harg4 arg5 harg5 arg6 harg6 x0 x1 x2 x3 x4 = bodyVal x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero zeros2]
  simp only [View.readAt_eq_ld, Memref.IsWhole.read_unread, View.ld_unit_zero (S := S256) zeros1]
  rfl

/-- What the body leaves in the output's staging buffer is the specification's block of the blocks it loaded. -/
theorem out_block (c : Dev nD) (i : grid0.Coords) (arg1 : Memref sig .tc .vmem S32x4096 .f32) (harg1 : arg1.IsWhole) (arg2 : Memref sig .tc .vmem S4096x256 .i32) (harg2 : arg2.IsWhole) (arg3 : Memref sig .tc .vmem S32x256 .i32) (harg3 : arg3.IsWhole) (arg4 : Memref sig .tc .vmem S32x256 .f32) (harg4 : arg4.IsWhole) (arg5 : Memref sig .tc .vmem S256 .f32) (harg5 : arg5.IsWhole) (arg6 : Memref sig .tc .vmem S32x256 .f32) (harg6 : arg6.IsWhole)
    (x0 : Vec Ideal S32x4096 .f32) (x1 : Vec Ideal S4096x256 .i32) (x2 : Vec Ideal S32x256 .i32) (x3 : Vec Ideal S32x256 .f32) (x4 : Vec Ideal S256 .f32) :
    out0_A_5 (F := Ideal) c i arg1 harg1 arg2 harg2 arg3 harg3 arg4 harg4 arg5 harg5 arg6 harg6 x0 x1 x2 x3 x4 = blockResult x0 x1 x2 x3 x4 :=
  (out_eq_bodyVal c i arg1 harg1 arg2 harg2 arg3 harg3 arg4 harg4 arg5 harg5 arg6 harg6 x0 x1 x2 x3 x4).trans (funext fun y => by
    obtain ⟨r, o, rfl⟩ : ∃ (r : Fin 32) (o : Fin 256), y = ix2 r o := ⟨y 0, y 1, eq_ix2 y⟩
    exact bodyVal_apply x0 x1 x2 x3 x4 r o)

end Cert.KernelIdeal.Body

end
-- ==== Proof.KernelArray.lean ====
/-
  From the blocks to the array.

  The program computes the quantised linear layer 256 output columns at a time: grid step `t` (of 43) is handed the
  whole 32 × 4096 activation matrix and columns `256 t … 256 t + 255` of the quantised weights, the zero points, the
  scales and the bias, and writes columns `256 t … 256 t + 255` of the 32 × 11008 output. Given that one step's
  block is the block formula of the blocks it was handed (`BlockHyp`), this module shows that the array the program
  ends with is the layer's result of the five launch arrays:

  * a block entry `(r, q)` of step `t` is the whole-array formula at `(r, 256 t + q)`, because every input block is
    the restriction of its array to the same columns and the formula reads nothing outside column `256 t + q` and
    row `r` (`block_at`, `flushed_eq`);
  * column `o` is in the block of step `o / 256`, and 43 · 256 = 11008, so the blocks fill the output (`cover`,
    `final5`);
  * before the steps the activation array `[1, 32, 4096]` loses its unit axis and after them the output `[32, 11008]`
    gains one; both keep row-major positions, so entry `(0, r, o)` of the end result is entry `(r, o)` of the output
    matrix over activations `x[0, r, ·]` (`xarr_apply`, `tail_eq`, `result_eq`).
-/
import proofs.«121166_j59425167507986_1_alg».proof.Proof.Gen.KernelIdeal.Frame
import proofs.«121166_j59425167507986_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Arr

open Cert.KernelIdeal Cert.KernelIdeal.Gen

variable (m : (ℓ : Loc nD τ sig) → Buf (Elt Ideal) ℓ) (ρ : Dev nD → PrngReg)

/-- The block identity: what one grid step leaves in the output's staging buffer is the block formula of the five
    input blocks it was given. -/
def BlockHyp : Prop := ∀ (c : Dev nD) (i : grid0.Coords) (arg1 : Memref sig .tc .vmem S32x4096 .f32) (harg1 : arg1.IsWhole) (arg2 : Memref sig .tc .vmem S4096x256 .i32) (harg2 : arg2.IsWhole) (arg3 : Memref sig .tc .vmem S32x256 .i32) (harg3 : arg3.IsWhole) (arg4 : Memref sig .tc .vmem S32x256 .f32) (harg4 : arg4.IsWhole) (arg5 : Memref sig .tc .vmem S256 .f32) (harg5 : arg5.IsWhole) (arg6 : Memref sig .tc .vmem S32x256 .f32) (harg6 : arg6.IsWhole) (x0 : Vec Ideal S32x4096 .f32) (x1 : Vec Ideal S4096x256 .i32) (x2 : Vec Ideal S32x256 .i32) (x3 : Vec Ideal S32x256 .f32) (x4 : Vec Ideal S256 .f32),
    out0_A_5 (F := Ideal) c i arg1 harg1 arg2 harg2 arg3 harg3 arg4 harg4 arg5 harg5 arg6 harg6 x0 x1 x2 x3 x4 = Cert.QLinear.blockResult x0 x1 x2 x3 x4

/-- The five arrays as the kernel region finds them, at their literal types. -/
abbrev xarr (c : Dev nD) : Vec Ideal S32x4096 .f32 := V m c main_v0
abbrev qwarr (c : Dev nD) : Vec Ideal S4096x11008 .i32 := V m c main_arg1
abbrev qzarr (c : Dev nD) : Vec Ideal S32x11008 .i32 := V m c main_arg2
abbrev scarr (c : Dev nD) : Vec Ideal S32x11008 .f32 := V m c main_arg3
abbrev barr (c : Dev nD) : Vec Ideal S11008 .f32 := V m c main_arg4

/-- Where each grid step's blocks sit: the activation block is the whole matrix at every step; the blocks of the
    quantised weights, zero points, scales and bias are the same 256 columns as the output block's; and step `t`'s
    output block is column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 1) = win0_5.index t (1 : Fin 2)
    ∧ win0_5.index t (0 : Fin 2) = 0 ∧ win0_5.index t (1 : Fin 2) = t.val :=
  (by decide +kernel : ∀ t : Fin grid0.N, _)

/-- The block formula on blocks that are restrictions of the five arrays is the whole-array formula at the
    corresponding entry: if block entry `j` of each input is the array's entry `e j`, and the embeddings send row
    `y 0` and column `y 1` of the blocks to row `i 0` and column `i 1` of the arrays (keeping the feature and group
    coordinates), then the block's entry `y` is the array result's entry `i`. -/
theorem block_at (x : Vec Ideal S32x4096 .f32) (qw : Vec Ideal S4096x11008 .i32) (qz : Vec Ideal S32x11008 .i32)
    (sc : Vec Ideal S32x11008 .f32) (b : Vec Ideal S11008 .f32)
    (x0 : Vec Ideal S32x4096 .f32) (x1 : Vec Ideal S4096x256 .i32) (x2 : Vec Ideal S32x256 .i32)
    (x3 : Vec Ideal S32x256 .f32) (x4 : Vec Ideal S256 .f32)
    (e0 : S32x4096.Idx → S32x4096.Idx) (e1 : S4096x256.Idx → S4096x11008.Idx) (e2 : S32x256.Idx → S32x11008.Idx)
    (e3 : S32x256.Idx → S32x11008.Idx) (e4 : S256.Idx → S11008.Idx)
    (h0 : ∀ j, x0 j = x (e0 j)) (h1 : ∀ j, x1 j = qw (e1 j)) (h2 : ∀ j, x2 j = qz (e2 j))
    (h3 : ∀ j, x3 j = sc (e3 j)) (h4 : ∀ j, x4 j = b (e4 j))
    (y : S32x256.Idx) (i : S32x11008.Idx)
    (he0 : ∀ k : Fin 4096, e0 (ix2 (y 0) k) = ix2 (i 0) k)
    (he1 : ∀ k : Fin 4096, e1 (ix2 k (y 1)) = ix2 k (i 1))
    (he2 : ∀ g : Fin 32, e2 (ix2 g (y 1)) = ix2 g (i 1))
    (he3 : ∀ g : Fin 32, e3 (ix2 g (y 1)) = ix2 g (i 1))
    (he4 : e4 (ix1 (y 1)) = ix1 (i 1)) :
    Cert.QLinear.blockResult x0 x1 x2 x3 x4 y = Cert.QLinear.result2 x qw qz sc b i := by
  unfold Cert.QLinear.blockResult Cert.QLinear.result2 Cert.QLinear.weight
  simp only [h0, h1, h2, h3, h4, he0, he1, he2, he3, he4]
  rfl

/-- What grid step `t` writes back is column block `t` of the whole-array result of the arrays as the region finds
    them. -/
theorem flushed_eq (hblk : BlockHyp) (c : Dev nD) (t : Fin cfg0.N) :
    (dats m 0 c).flushed 5 t = ((cfg0.win 5).blk t).view.read (Elt Ideal)
      (Cert.QLinear.result2 (xarr m c) (qwarr m c) (qzarr m c) (scarr m c) (barr m c)) := by
  show (cfg0.win 5).cut (grid0.coords t) ((dats m 0 c).after 5 t) = _
  rw [after0_5]
  unfold outsAt0
  rw [hblk]
  obtain ⟨a00, a01, a10, a11, a20, a21, a30, a31, a40, a50, a51⟩ := idx_facts t
  funext y
  rw [View.read_apply]
  refine block_at (xarr m c) (qwarr m c) (qzarr m c) (scarr m c) (barr m c)
    (iblk m c 0 t) (iblk m c 1 t) (iblk m c 2 t) (iblk m c 3 t) (iblk m c 4 t)
    (fun j => ((cfg0.win 0).blk t).view.emb j) (fun j => ((cfg0.win 1).blk t).view.emb j)
    (fun j => ((cfg0.win 2).blk t).view.emb j) (fun j => ((cfg0.win 3).blk t).view.emb j)
    (fun j => ((cfg0.win 4).blk t).view.emb j)
    (fun j => rfl) (fun j => rfl) (fun j => rfl) (fun j => rfl) (fun j => rfl)
    ((cfg0.win 5).xinj (grid0.coords t) y) (((cfg0.win 5).blk t).view.emb y) ?_ ?_ ?_ ?_ ?_
  · intro k; funext a; apply Fin.ext
    match a with
    | ⟨0, _⟩ => show win0_0.index t (0 : Fin 2) * 32 + 1 * (y 0).val = win0_5.index t (0 : Fin 2) * 32 + 1 * (y 0).val; omega
    | ⟨1, _⟩ => show win0_0.index t (1 : Fin 2) * 4096 + 1 * k.val = k.val; omega
  · intro k; funext a; apply Fin.ext
    match a with
    | ⟨0, _⟩ => show win0_1.index t (0 : Fin 2) * 4096 + 1 * k.val = k.val; omega
    | ⟨1, _⟩ => show win0_1.index t (1 : Fin 2) * 256 + 1 * (y 1).val = win0_5.index t (1 : Fin 2) * 256 + 1 * (y 1).val; omega
  · intro g; funext a; apply Fin.ext
    match a with
    | ⟨0, _⟩ => show win0_2.index t (0 : Fin 2) * 32 + 1 * g.val = g.val; omega
    | ⟨1, _⟩ => show win0_2.index t (1 : Fin 2) * 256 + 1 * (y 1).val = win0_5.index t (1 : Fin 2) * 256 + 1 * (y 1).val; omega
  · intro g; funext a; apply Fin.ext
    match a with
    | ⟨0, _⟩ => show win0_3.index t (0 : Fin 2) * 32 + 1 * g.val = g.val; omega
    | ⟨1, _⟩ => show win0_3.index t (1 : Fin 2) * 256 + 1 * (y 1).val = win0_5.index t (1 : Fin 2) * 256 + 1 * (y 1).val; omega
  · funext a; apply Fin.ext
    match a with
    | ⟨0, _⟩ => show win0_4.index t (0 : Fin 1) * 256 + 1 * (y 1).val = win0_5.index t (1 : Fin 2) * 256 + 1 * (y 1).val; omega

/-- An entry of the output array lies in step `t`'s block iff each coordinate lies in the block's range on its axis. -/
theorem mem_blk (t : Fin cfg0.N) (i : S32x11008.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v1).slice (win0_5.rect t)).set ↔ _
  rw [View.set_slice_whole, Rect.mem_set_unit]
  exact Iff.rfl

/-- Every entry of the output array is written back: column `o` lies in the block of step `o / 256`, and there are
    43 · 256 = 11008 columns. -/
theorem cover (i : S32x11008.Idx) : ∃ t : Fin cfg0.N, (cfg0.win 5).flush t = true ∧ i ∈ ((cfg0.win 5).blk t).view.set := by
  have hN : cfg0.N = 43 := N_0
  have hi0 : (i 0).val < 32 := (i 0).isLt
  have hi1 : (i 1).val < 11008 := (i 1).isLt
  let t : Fin cfg0.N := ⟨(i 1).val / 256, by rw [hN]; omega⟩
  obtain ⟨a00, a01, a10, a11, a20, a21, a30, a31, a40, a50, a51⟩ := idx_facts t
  have ht : t.val = (i 1).val / 256 := rfl
  refine ⟨t, flush0_5 t, ?_⟩
  rw [mem_blk]
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 256 ≤ (i 1).val ∧ (i 1).val < win0_5.index t (1 : Fin 2) * 256 + 256; omega

/-- The output array after the region: the whole-array result of the arrays as the region finds them. -/
theorem final5 (hblk : BlockHyp) (c : Dev nD) : (dats m 0 c).arrAt 5 cfg0.N
    = Cert.QLinear.result2 (xarr m c) (qwarr m c) (qzarr m c) (scarr m c) (barr m c) :=
  (dats m 0 c).arrAt_eq_of_cover 5 (Cert.QLinear.result2 (xarr m c) (qwarr m c) (qzarr m c) (scarr m c) (barr m c))
    (fun t _ => flushed_eq m hblk c t) cover

/-- The activation matrix the region finds is the launch's activation array with its leading unit axis dropped. -/
theorem xarr_eq (c : Dev nD) : xarr m c
    = shapeCast S32x4096 (m ((c.tc : Thread nD τ).loc main_arg0) : Vec Ideal S1x32x4096 .f32) Facts₀.shapeCasts_S1x32x4096_S32x4096 := by
  show StableHlo.after hostOps0 (fun b => m (c, b)) (Proc.devRef .tc main_v0) = _
  after_results
  rfl

/-- Entry `(r, k)` of that matrix is entry `(0, r, k)` of the launch's array: the same row-major position. -/
theorem xarr_apply (c : Dev nD) (r : Fin 32) (k : Fin 4096) :
    xarr m c (ix2 r k) = (m ((c.tc : Thread nD τ).loc main_arg0) : Vec Ideal S1x32x4096 .f32) (ix3 (0 : Fin 1) r k) := by
  rw [xarr_eq]
  refine shapeCast_apply _ _ (ix2 r k) (ix3 (0 : Fin 1) r k) ?_
  rw [Shape.rowMajor_val_two, Shape.rowMajor_val_three]
  show (0 * 32 + r.val) * 4096 + k.val = r.val * 4096 + k.val
  omega

/-- The result array after the host reshape that follows the region: the region's output matrix with a leading unit
    axis put on. -/
theorem tail_eq (hblk : BlockHyp) (c : Dev nD) :
    Pipeline.afterTail₀ cfgs (dats m) 0 (V0 m) [hostOps1] c main_v2
      = shapeCast S1x32x11008 (Cert.QLinear.result2 (xarr m c) (qwarr m c) (qzarr m c) (scarr m c) (barr m c)) Facts₀.shapeCasts_S32x11008_S1x32x11008 := by
  unfold Pipeline.afterTail₀
  show StableHlo.after hostOps1 _ (Proc.devRef .tc main_v2) = _
  after_results
  have e := (Pipeline.withArrays_arr spec0 launch0.win.arr_inj c (V0 m c) (fun w => (dats m 0 c).arrAt w cfg0.N) 5).trans (final5 m hblk c)
  exact congrArg (fun v : Vec Ideal S32x11008 .f32 => shapeCast S1x32x11008 v Facts₀.shapeCasts_S32x11008_S1x32x11008) e

/-- Putting the leading unit axis on: entry `(0, r, o)` of the layer's result over the three-axis activation array is
    entry `(r, o)` of the result over the activation matrix whose row `r` is the array's `(0, r, ·)`. -/
theorem result2_eq_result (x : Vec Ideal S1x32x4096 .f32) (x' : Vec Ideal S32x4096 .f32) (qw : Vec Ideal S4096x11008 .i32)
    (qz : Vec Ideal S32x11008 .i32) (sc : Vec Ideal S32x11008 .f32) (b : Vec Ideal S11008 .f32)
    (hx : ∀ (r : Fin 32) (k : Fin 4096), x' (ix2 r k) = x (ix3 (0 : Fin 1) r k)) (r : Fin 32) (o : Fin 11008) :
    Cert.QLinear.result2 x' qw qz sc b (ix2 r o) = Cert.QLinear.result x qw qz sc b (ix3 (0 : Fin 1) r o) := by
  unfold Cert.QLinear.result2 Cert.QLinear.result
  show (∑ k : Fin 4096, x' (ix2 r k) * Cert.QLinear.weight qw qz sc k o) + b (ix1 o)
    = (∑ k : Fin 4096, x (ix3 (0 : Fin 1) r k) * Cert.QLinear.weight qw qz sc k o) + b (ix1 o)
  simp only [hx]

/-- The tail's array is the layer's result of the launch arrays: entry `(0, r, o)` of the reshaped array is entry
    `(r, o)` of the region's output matrix, whose activation row `r` is the launch's at `(0, r, ·)` and whose other
    four arrays are the launch's own. -/
theorem result_eq (hblk : BlockHyp) (c : Dev nD) :
    Pipeline.afterTail₀ cfgs (dats m) 0 (V0 m) [hostOps1] c main_v2
      = Cert.QLinear.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [tail_eq m hblk c]
  have e1 : qwarr m c = m ((c.tc : Thread nD τ).loc main_arg1) := V_main_arg1 m c
  have e2 : qzarr m c = m ((c.tc : Thread nD τ).loc main_arg2) := V_main_arg2 m c
  have e3 : scarr m c = m ((c.tc : Thread nD τ).loc main_arg3) := V_main_arg3 m c
  have e4 : barr m c = m ((c.tc : Thread nD τ).loc main_arg4) := V_main_arg4 m c
  rw [e1, e2, e3, e4]
  funext j
  obtain ⟨a, r, o, rfl⟩ : ∃ (a : Fin 1) (r : Fin 32) (o : Fin 11008), j = ix3 a r o := ⟨j 0, j 1, j 2, eq_ix3 j⟩
  obtain rfl : a = 0 := Subsingleton.elim _ _
  refine (shapeCast_apply _ _ (ix3 (0 : Fin 1) r o) (ix2 r o) ?_).trans ?_
  · rw [Shape.rowMajor_val_two, Shape.rowMajor_val_three]
    show r.val * 11008 + o.val = (0 * 32 + r.val) * 11008 + o.val
    omega
  · exact result2_eq_result (m ((c.tc : Thread nD τ).loc main_arg0)) (xarr m c) (m ((c.tc : Thread nD τ).loc main_arg1))
      (m ((c.tc : Thread nD τ).loc main_arg2)) (m ((c.tc : Thread nD τ).loc main_arg3)) (m ((c.tc : Thread nD τ).loc main_arg4))
      (xarr_apply m c) r o

/-- THE KERNEL'S RUN: given the block identity, the program's run from any launch memory ends with the result array
    at the layer's result of the five launch arrays, and those five arrays as launched. -/
theorem kernel_run (hblk : BlockHyp) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = Cert.QLinear.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v2 (Pipeline.mem_restRefs_of main_v2 (by decide) (by decide))).trans (result_eq m hblk c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Arr

end
-- ==== Proof.RefSide.lean ====
import proofs.«121166_j59425167507986_1_alg».proof.Proof.Gen.ReferenceIdeal.Run
import proofs.«121166_j59425167507986_1_alg».proof.Proof.Gen.ReferenceIdeal.Read
import proofs.«121166_j59425167507986_1_alg».proof.Proof.Spec

/-
  The reference program computes the quantised linear layer's specification.

  The reference regroups the 4096 × 11008 integer weights as 32 × 128 × 11008, subtracts each group's zero point
  and multiplies by each group's scale (both broadcast along the 128 features of the group), flattens the
  product back to 4096 × 11008, contracts the activations against it over the 4096 features, and adds the bias
  broadcast along the rows. Entry (k, o) of the flattened product sits at flat position k · 11008 + o, which in
  the regrouped array is (k / 128, k % 128, o): so it is the weight of feature k for column o, with the zero
  point and the scale of group k / 128. Changes of float format are the identity over the extended reals.
-/

noncomputable section

namespace Cert.ReferenceIdeal.RefSide

open Cert.ReferenceIdeal Cert.ReferenceIdeal.Gen Idealize.ShloMosaic Idealize.ShloMosaic.TcCoe Idealize.SL.Sem
  Idealize.ShloMosaic.StableHlo Idealize.ShloMosaic.ValueIdx Cert.QLinear

/-- Entry (k, o) of the flattened array, regrouped and flattened again, is entry (k, o). -/
theorem idx_qw (k : Fin 4096) (o : Fin 11008) :
    Read.idx_main_v0 (Read.idx_main_v11 (ix2 k o)) = ix2 k o :=
  funext fun a => Fin.ext (by
    have hk := k.isLt
    have ho := o.isLt
    match a with
    | ⟨0, _⟩ =>
      show (((k.val * 11008 + o.val) / 1409024 * 128 + (k.val * 11008 + o.val) / 11008 % 128) * 11008
        + (k.val * 11008 + o.val) % 11008) / 11008 = k.val
      omega
    | ⟨1, _⟩ =>
      show (((k.val * 11008 + o.val) / 1409024 * 128 + (k.val * 11008 + o.val) / 11008 % 128) * 11008
        + (k.val * 11008 + o.val) % 11008) % 11008 = o.val
      omega)

/-- The zero point broadcast to entry (k, o) of the flattened array is the one of group k / 128, column o. -/
theorem idx_qz (k : Fin 4096) (o : Fin 11008) :
    Read.idx_main_v4 (Read.idx_main_v6 (Read.idx_main_v11 (ix2 k o))) = ix2 (grpOf k) o :=
  funext fun a => Fin.ext (by
    have hk := k.isLt
    have ho := o.isLt
    match a with
    | ⟨0, _⟩ =>
      show (k.val * 11008 + o.val) / 1409024 = k.val / 128
      omega
    | ⟨1, _⟩ =>
      show (k.val * 11008 + o.val) % 11008 = o.val
      omega)

/-- The scale broadcast to entry (k, o) of the flattened array is the one of group k / 128, column o. -/
theorem idx_sc (k : Fin 4096) (o : Fin 11008) :
    Read.idx_main_v8 (Read.idx_main_v9 (Read.idx_main_v11 (ix2 k o))) = ix2 (grpOf k) o :=
  funext fun a => Fin.ext (by
    have hk := k.isLt
    have ho := o.isLt
    match a with
    | ⟨0, _⟩ =>
      show (k.val * 11008 + o.val) / 1409024 = k.val / 128
      omega
    | ⟨1, _⟩ =>
      show (k.val * 11008 + o.val) % 11008 = o.val
      omega)

/-- The contraction's right operand for result entry (b, r, o) and feature k is entry (k, o). -/
theorem idx_rhs (b : Fin 1) (r : Fin 32) (o : Fin 11008) (k : Fin 4096) :
    Read.ridx_main_v16 (ix3 b r o) k = ix2 k o :=
  funext fun a => Fin.ext (by match a with | ⟨0, _⟩ => rfl | ⟨1, _⟩ => rfl)

/-- The contraction's left operand for result entry (b, r, o) and feature k is entry (b, r, k). -/
theorem idx_lhs (b : Fin 1) (r : Fin 32) (o : Fin 11008) (k : Fin 4096) :
    Read.lidx_main_v16 (ix3 b r o) k = ix3 b r k :=
  funext fun a => Fin.ext (by match a with | ⟨0, _⟩ => rfl | ⟨1, _⟩ => rfl | ⟨2, _⟩ => rfl)

/-- The bias broadcast to result entry (b, r, o) is the one of column o. -/
theorem idx_bias (b : Fin 1) (r : Fin 32) (o : Fin 11008) :
    Read.idx_main_v17 (Read.idx_main_v18 (ix3 b r o)) = ix1 o :=
  funext fun a => Fin.ext (by match a with | ⟨0, _⟩ => rfl)

/-- Entry (k, o) of the flattened dequantised array is the weight of feature k for column o. -/
theorem dequant_at (x1 : (⟨S4096x11008, .i32⟩ : BufTy).Contents (Elt Ideal))
    (x2 : (⟨S32x11008, .i32⟩ : BufTy).Contents (Elt Ideal)) (x3 : (⟨S32x11008, .f32⟩ : BufTy).Contents (Elt Ideal))
    (k : Fin 4096) (o : Fin 11008) :
    Read.val_main_v11 (F := Ideal) x1 x2 x3 (ix2 k o) = weight x1 x2 x3 k o := by
  rw [Read.val_main_v11_apply, Read.val_main_v10_apply, Read.val_main_v7_apply, Read.val_main_v9_apply,
    Read.val_main_v8_apply, Read.val_main_v3_apply, Read.val_main_v2_apply, Read.val_main_v1_apply,
    Read.val_main_v0_apply, Read.val_main_v6_apply, Read.val_main_v5_apply, Read.val_main_v4_apply,
    idx_qw, idx_qz, idx_sc]
  rfl

/-- The reference's result is the specification, entry by entry. -/
theorem ref_result (x0 : (⟨S1x32x4096, .f32⟩ : BufTy).Contents (Elt Ideal))
    (x1 : (⟨S4096x11008, .i32⟩ : BufTy).Contents (Elt Ideal)) (x2 : (⟨S32x11008, .i32⟩ : BufTy).Contents (Elt Ideal))
    (x3 : (⟨S32x11008, .f32⟩ : BufTy).Contents (Elt Ideal)) (x4 : (⟨S11008, .f32⟩ : BufTy).Contents (Elt Ideal)) :
    Cert.ReferenceIdeal.Read.val_main_v19 (F := Ideal) x0 x1 x2 x3 x4 = Cert.QLinear.result x0 x1 x2 x3 x4 := by
  funext j
  obtain ⟨b, r, o, rfl⟩ : ∃ (b : Fin 1) (r : Fin 32) (o : Fin 11008), j = ix3 b r o := ⟨j 0, j 1, j 2, eq_ix3 j⟩
  rw [Read.val_main_v19_apply, Read.val_main_v16_apply, Read.val_main_v18_apply, Read.val_main_v17_apply,
    Read.val_main_v15_apply, Read.val_main_v14_apply, idx_bias]
  show (∑ k : Fin 4096, _) + x4 (ix1 o) = (∑ i : Fin 4096, x0 (ix3 b r i) * weight x1 x2 x3 i o) + x4 (ix1 o)
  congr 1
  refine Finset.sum_congr rfl fun k _ => ?_
  rw [idx_lhs, idx_rhs, dequant_at, Read.val_main_v13_apply, Read.val_main_v12_apply]
  rfl

/-- Every weakly fair execution of the reference terminates with its result at the specification of the
    arguments' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = Cert.QLinear.result (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((Read.val_main_v19_eq (F := Ideal) _ _ _ _ _).trans (ref_result _ _ _ _ _)), (h c).2⟩)
    (Value.run (F := Ideal) m ρ)

end Cert.ReferenceIdeal.RefSide

end
-- ==== Proof.lean ====
/-
  The quantised linear layer: a blocked kernel that walks the 11008 output columns in 43 blocks of 256 and, inside a
  block, the 4096 input features in 32 groups of 128 — each group dequantised, `(qw - qz[g]) · sc[g]`, and multiplied
  into the activations, the 32 products accumulated from zero, the bias added last — against a reference that
  dequantises the whole weight matrix and contracts all 4096 features at once.

  Over the extended reals both compute `result[0, r, o] = (∑ i < 4096, x[0, r, i] · ((qw[i, o] - qz[i / 128, o]) ·
  sc[i / 128, o])) + bias[o]` (Proof/Spec.lean): the changes of float format are the identity there, the integers
  are read as the reals they are, and the two programs differ only in how the sum over the features is grouped,
  which addition's commutativity and associativity absorb — no finiteness of the inputs is used.

  The kernel side: what one group contributes to an entry (Proof/GroupDot.lean); the body's stored block as the
  32-fold accumulation and its value entry by entry (Proof/BlockChain.lean); the 43 blocks tiling the output array,
  and the reshapes around the call (Proof/KernelArray.lean). The reference side, one
  operation at a time (Proof/RefSide.lean). The kernel's idealization replaced 33 round trips through bf16 (the 32
  groups' scale rows and the bias row) by the identity: one statement of that rule per site.
-/
import proofs.«121166_j59425167507986_1_alg».proof.Defs
import proofs.«121166_j59425167507986_1_alg».proof.Proof.Gen.Kernel
import proofs.«121166_j59425167507986_1_alg».proof.Proof.Gen.Kernel.Frame
import proofs.«121166_j59425167507986_1_alg».proof.Proof.Gen.KernelIdeal
import proofs.«121166_j59425167507986_1_alg».proof.Proof.Gen.KernelIdeal.Frame
import proofs.«121166_j59425167507986_1_alg».proof.Proof.Gen.ReferenceIdeal
import proofs.«121166_j59425167507986_1_alg».proof.Proof.Gen.ReferenceIdeal.Run
import proofs.«121166_j59425167507986_1_alg».proof.Proof.Gen.Pre_finite_inputs
import proofs.«121166_j59425167507986_1_alg».proof.Proof.BlockChain
import proofs.«121166_j59425167507986_1_alg».proof.Proof.KernelArray
import proofs.«121166_j59425167507986_1_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Each of the 33 sites rounds a row of 256 values to bf16 and widens it back: the identity on extended reals. -/
theorem preserves : Cert.preserves_Kernel_KernelIdeal :=
  have st := IdealRules.truncf_extf.statement Cert.KernelIdeal.S256 .f32 .bf16
  ⟨st, st, st, st, st, st, st, st, st, st, st, st, st, st, st, st, st, st, st, st, st, st, st, st, st, st, st, st, st, st, st, st, st⟩

/-- Both programs end with the specification's result of the arguments, which agree. -/
theorem algebraic : Cert.algebraic_KernelIdeal_ReferenceIdeal := by
  intro m ρ m' ρ' _ hagree
  refine ⟨fun (c : Dev Cert.KernelIdeal.nD) => Cert.QLinear.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Arr.kernel_run Cert.KernelIdeal.Body.out_block m ρ, ?_⟩
  refine (θ_run Cert.ReferenceIdeal.defs _ _).mono (fun _ h c => ⟨(h c).1.trans ?_, (h c).2⟩)
    (Cert.ReferenceIdeal.RefSide.ref_run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
